-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S512x2048 : Shape := ⟨2, ![512, 2048]⟩
abbrev S1x512 : Shape := ⟨2, ![1, 512]⟩
abbrev S256x512 : Shape := ⟨2, ![256, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S4096x2048.size a
  hwx0_5 : ∀ i : grid0.Coords, EltTy.bits .f32 = 32 ∨ (Rect.block (s := S4096x2048) S256x512.size (cc0_transform_5 i) (hinb0_5 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .i1⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.LayerSpec.lean ====
/-
  The function both programs compute, written once on the extended reals.

  A linear layer whose weight is sampled from a diagonal Gaussian posterior by the reparametrisation
  trick: `W[o, k] = μ[o, k] + softplus(ρ[o, k]) · ε[o, k]`, and `out[n, o] = ∑ₖ x[n, k] · W[o, k] + b[o]`
  with `k` running over the 2048 input features. `softplus r = max r 0 + log (1 + e^(-|r|))` is the
  overflow-free form of `log (1 + e^r)`; both programs spell it that way, behind a self-inequality test
  (`r ≠ r`, which on a linear order is never true) and with a few neutral zeros (`r - 0`, and the kernel's
  `0 - |r|` for the reference's `-|r|`). The two spellings are shown equal to `softplus` here, element by element,
  with no hypothesis on `r`: every identity used (`a - 0 = a`, `0 - a = -a`) holds on all of `[-∞, +∞]`.
-/
import Idealize.ShloMosaic.PureOps.Ideal.Laws
import Idealize.ShloMosaic.Lib.ValueIdx

noncomputable section

open scoped BigOperators

namespace Cert.BayesLinear

open Idealize.ShloMosaic Idealize.ShloMosaic.ValueIdx

/-- The activations' shape, 4096 rows of 2048 features (also the result's: 4096 rows of 2048 outputs). -/
abbrev SAct : Shape := ⟨2, ![4096, 2048]⟩
/-- The three weight arrays' shape: 2048 outputs by 2048 input features. -/
abbrev SWgt : Shape := ⟨2, ![2048, 2048]⟩
/-- The bias's shape. -/
abbrev SBias : Shape := ⟨1, ![2048]⟩

/-- `softplus r = max r 0 + log (1 + e^(-|r|))`, with `|r| = max r (-r)`. -/
def softplus (r : EReal) : EReal := max r 0 + Ideal.log1p (Ideal.exp (-(max r (-r))))

/-- A value is never different from itself: the comparison both programs guard `softplus` with answers `0`. -/
theorem cmp_ne_self (a : EReal) : Ideal.cmp .one a a = 0#1 := by
  simp [Ideal.cmp]

/-- The kernel's spelling of `softplus` at one element. -/
theorem softplus_of_kernel (r : EReal) :
    Scalar.select (Ideal.cmp .one (r - 0) (r - 0)) (r + 0)
      (max r 0 + Ideal.log1p (Ideal.exp (0 - max (r - 0) (-(r - 0))))) = softplus r := by
  rw [cmp_ne_self, select_zero, sub_zero, zero_sub]; rfl

/-- The reference's spelling of `softplus` at one element (its unordered-or-unequal test is the same comparison). -/
theorem softplus_of_reference (r : EReal) :
    Scalar.select (Ideal.cmp .une (r - 0) (r - 0)) (r + 0)
      (max r 0 + Ideal.log1p (Ideal.exp (-(max (r - 0) (-(r - 0)))))) = softplus r := by
  rw [show Ideal.cmp .une (r - 0) (r - 0) = Ideal.cmp .one (r - 0) (r - 0) from rfl, cmp_ne_self, select_zero, sub_zero]; rfl

/-- The sampled weight at output `o`, input feature `k`. -/
def weight (mu rho eps : FVec Ideal SWgt .f32) (o k : Fin 2048) : EReal :=
  mu (ix2 o k) + softplus (rho (ix2 o k)) * eps (ix2 o k)

/-- The layer's result at row `n`, output `o`. -/
def out (x : FVec Ideal SAct .f32) (mu rho eps : FVec Ideal SWgt .f32) (b : FVec Ideal SBias .f32) :
    FVec Ideal SAct .f32 :=
  fun i => (∑ k : Fin 2048, x (ix2 (i 0) k) * weight mu rho eps (i 1) k) + b (ix1 (i 1))

theorem out_apply (x : FVec Ideal SAct .f32) (mu rho eps : FVec Ideal SWgt .f32) (b : FVec Ideal SBias .f32)
    (n : Fin 4096) (o : Fin 2048) :
    out x mu rho eps b (ix2 n o) = (∑ k : Fin 2048, x (ix2 n k) * weight mu rho eps o k) + b (ix1 o) := rfl

end Cert.BayesLinear

end
-- ==== Proof.KernelBlock.lean ====
/-
  One grid point of the kernel, read at an element of its output block.

  At a grid point the body holds a 256-row block of the activations, the matching 512-output blocks of the three
  weight arrays and a 512-wide piece of the bias row. It forms the sampled weight block elementwise
  (`μ + softplus ρ · ε`, with its own spelling of `softplus`), multiplies the activation block by it on the matrix
  unit, contracting the 2048 features (into a zero accumulator: at the ideal values the plain sum of products),
  and adds the bias piece along the rows. The changes of float format on the way to the matrix unit are the
  identity on extended reals. So element (p, q) of what it stores is
  `∑ₖ x[p, k] · (μ[q, k] + softplus ρ[q, k] · ε[q, k]) + b[0, q]`.
-/
import proofs.«115161_j12876311953605_1_alg».proof.Proof.Gen.KernelIdeal.Skeleton
import proofs.«115161_j12876311953605_1_alg».proof.Proof.LayerSpec
import Idealize.ShloMosaic.Lib.Pipeline.Value
import Idealize.ShloMosaic.Lib.ValueIdx
import Idealize.ShloMosaic.PureOps.Ideal.Laws

noncomputable section

open scoped BigOperators

namespace Cert.BayesLinear.Block

open Cert.KernelIdeal Cert.KernelIdeal.Gen
open Idealize.ShloMosaic Idealize.ShloMosaic.ValueIdx Cert.BayesLinear

/-! ## The matrix product's operand indices -/

/-- The left operand is read at the output's row … -/
theorem lhs_row (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
/-- … and at the contracted feature. -/
theorem lhs_feature (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
/-- The right operand is read at the output's column, as ITS row (the weight block is outputs by features) … -/
theorem rhs_row (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
/-- … and at the contracted feature. -/
theorem rhs_feature (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The matrix unit's product into a zero accumulator, at the ideal values: element (p, q) is the sum over the
    2048 features of row p of the left operand times row q of the right one. -/
theorem matmul_at (l : FVec Ideal S256x2048 .bf16) (r : FVec Ideal S512x2048 .bf16) (p : Fin 256) (q : Fin 512) :
    matmul dot_S256x2048_S512x2048_S256x512_1_1_0_0_n_n none l r (constant (F := Ideal) S256x512 .f32 0x00000000#32) (ix2 p q)
      = ∑ k : Fin 2048, l (ix2 p k) * r (ix2 q k) := by
  simp only [matmul]
  rw [Ideal.matmul_constant_zero_apply, ← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 p q) ((contrEquiv1 dot_S256x2048_S512x2048_S256x512_1_1_0_0_n_n 2048 rfl rfl).symm k) = ix2 p k := funext fun a => Fin.ext (by
    match a with
    | ⟨0, _⟩ => exact lhs_row _ _
    | ⟨1, _⟩ => exact (lhs_feature _ _).trans hk)
  have er : dot_S256x2048_S512x2048_S256x512_1_1_0_0_n_n.rhsIdx (ix2 p q) ((contrEquiv1 dot_S256x2048_S512x2048_S256x512_1_1_0_0_n_n 2048 rfl rfl).symm k) = ix2 q k := funext fun a => Fin.ext (by
    match a with
    | ⟨0, _⟩ => exact rhs_row _ _
    | ⟨1, _⟩ => exact (rhs_feature _ _).trans hk)
  rw [el, er]

/-! ## The sampled weight block -/

/-- The weight block as the body computes it from the three loaded blocks, before the change of format. -/
def weightBlock (mu rho eps : FVec Ideal S512x2048 .f32) : FVec Ideal S512x2048 .f32 :=
  addf mu (mulf (select (cmpf .one (subf rho (broadcast S512x2048 (Scalar.ofBits .f32 0x00000000#32))) (subf rho (broadcast S512x2048 (Scalar.ofBits .f32 0x00000000#32))))
      (addf rho (broadcast S512x2048 (Scalar.ofBits .f32 0x00000000#32)))
      (addf (maximumf rho (broadcast S512x2048 (Scalar.ofBits .f32 0x00000000#32)))
        (log1p (exp (subf (broadcast S512x2048 (Scalar.ofBits .f32 0x00000000#32)) (absf (subf rho (broadcast S512x2048 (Scalar.ofBits .f32 0x00000000#32))))))))) eps)

/-- At an element it is `μ + softplus ρ · ε`. -/
theorem weightBlock_apply (mu rho eps : FVec Ideal S512x2048 .f32) (j : S512x2048.Idx) :
    weightBlock mu rho eps j = mu j + softplus (rho j) * eps j := by
  show mu j + Scalar.select (Ideal.cmp .one (rho j - Ideal.ofBits .f32 0x00000000#32) (rho j - Ideal.ofBits .f32 0x00000000#32))
      (rho j + Ideal.ofBits .f32 0x00000000#32)
      (max (rho j) (Ideal.ofBits .f32 0x00000000#32) + Ideal.log1p (Ideal.exp (Ideal.ofBits .f32 0x00000000#32
        - max (rho j - Ideal.ofBits .f32 0x00000000#32) (-(rho j - Ideal.ofBits .f32 0x00000000#32))))) * eps j = _
  rw [Ideal.ofBits_zero_f32, softplus_of_kernel]

/-! ## The bias piece along the rows -/

/-- The 1×512 bias piece broadcast over the 256 rows reads, at (p, q), the piece at (0, q). -/
theorem bias_rows_at (b : FVec Ideal S1x512 .f32) (p : Fin 256) (q : Fin 512) :
    broadcastTo S256x512 (shapeCast S1x512 b shapeCasts_S1x512_S1x512) broadcasts_S1x512_S256x512 (ix2 p q) = b (ix2 0 q) := by
  rw [shapeCast_self]
  exact broadcastTo_apply b broadcasts_S1x512_S256x512 (ix2 p q) (ix2 0 q) (fun a => by
    match a with
    | ⟨0, _⟩ => rfl
    | ⟨1, _⟩ => rfl)

/-! ## The stored value -/

/-- Element (p, q) of what a grid point stores, from the blocks it loaded. -/
theorem payload_at (x : FVec Ideal S256x2048 .f32) (mu rho eps : FVec Ideal S512x2048 .f32) (b : FVec Ideal S1x512 .f32)
    (p : Fin 256) (q : Fin 512) :
    k0_pay1 (F := Ideal) x mu rho eps b (ix2 p q)
      = (∑ k : Fin 2048, x (ix2 p k) * (mu (ix2 q k) + softplus (rho (ix2 q k)) * eps (ix2 q k))) + b (ix2 0 q) := by
  show matmul dot_S256x2048_S512x2048_S256x512_1_1_0_0_n_n none (truncf .bf16 x bitsLt_bf16_f32) (truncf .bf16 (weightBlock mu rho eps) bitsLt_bf16_f32)
        (constant (F := Ideal) S256x512 .f32 0x00000000#32) (ix2 p q)
      + broadcastTo S256x512 (shapeCast S1x512 b shapeCasts_S1x512_S1x512) broadcasts_S1x512_S256x512 (ix2 p q) = _
  rw [matmul_at, bias_rows_at]
  refine congrArg (· + b (ix2 0 q)) (Finset.sum_congr rfl fun k _ => ?_)
  rw [truncf_apply, truncf_apply, weightBlock_apply]

end Cert.BayesLinear.Block

end
-- ==== Proof.KernelArray.lean ====
/-
  From grid points to the whole result array.

  The grid has 4 × 16 points (j, i): point (j, i) loads rows 256·i … 256·i + 255 of the activations, outputs
  512·j … 512·j + 511 of the three weight arrays and of the bias row, and writes block (i, j) of the result. The bias
  row is the bias reshaped to one row of 2048 by the program before the grid starts. Element (p, q) of the block a
  point writes is therefore the layer of `LayerSpec` at row 256·i + p, output 512·j + q, and the 64 blocks tile the
  4096 × 2048 result: row n, output o lies in the block of the point with i = n / 256 and j = o / 512.
-/
import proofs.«115161_j12876311953605_1_alg».proof.Proof.Gen.KernelIdeal.Value
import proofs.«115161_j12876311953605_1_alg».proof.Proof.KernelBlock
import Idealize.ShloMosaic.Lib.Pipeline.Value
import Idealize.ShloMosaic.Lib.ValueLayout
import Idealize.ShloMosaic.Lib.StableHlo.Run

noncomputable section

open scoped BigOperators

namespace Cert.BayesLinear.Grid

open Cert.KernelIdeal Cert.KernelIdeal.Gen
open Idealize.ShloMosaic Idealize.ShloMosaic.TcCoe Idealize.SL.Sem Idealize.ShloMosaic.ValueIdx Cert.BayesLinear
open Idealize.ShloMosaic.Pipeline (Dat)

variable (m : (ℓ : Loc nD τ sig) → Buf (Elt Ideal) ℓ) (ρ : Dev nD → PrngReg)

/-- The layer of the argument arrays as launched, on core `c`. -/
def layer (c : Dev nD) : FVec Ideal S4096x2048 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

theorem zero_offsets : (![0, 0] : Fin 2 → Nat) = fun _ => 0 := funext fun a => by fin_cases a <;> rfl

/-- The bias row the grid reads is the bias: entry (0, o) of the row is entry o of the argument. -/
theorem bias_row (c : Dev nD) (o : Fin 2048) :
    (V m c main_v0 : S1x2048.Idx → EReal) (ix2 (0 : Fin 1) o) = (m ((c : Thread nD τ).loc main_arg4) : S2048.Idx → EReal) (ix1 o) := by
  have e : (V m c main_v0 : S1x2048.Idx → EReal)
      = shapeCast S1x2048 (m ((c : Thread nD τ).loc main_arg4) : S2048.Idx → EReal) shapeCasts_S2048_S1x2048 := by
    dsimp only [Gen.V, Gen.hostOps0]; after_results; rfl
  rw [e]
  exact shapeCast_a_1a_apply _ _ 0 o

/-- How the six index maps sit together at every grid point: the activations move with the result's row block,
    the weights and the bias row with its column block, and nothing moves along the features. -/
theorem index_maps : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every block of the result is some grid point's. -/
theorem index_onto : ∀ (i : Fin 16) (j : Fin 4), ∃ t : Fin cfg0.N, win0_5.index t = ![i.val, j.val] :=
  (by decide +kernel : ∀ (i : Fin 16) (j : Fin 4), ∃ t : Fin grid0.N, win0_5.index t = ![i.val, j.val])

/-- One element of one point's block, over blocks and arrays of the literal shapes: if the loaded blocks are the
    rows of the arrays that the result's index `i` calls for, the element stored at `y` is the layer at `i`. -/
theorem element_of_rows (x : FVec Ideal S256x2048 .f32) (mu rho eps : FVec Ideal S512x2048 .f32) (b : FVec Ideal S1x512 .f32)
    (X : FVec Ideal S4096x2048 .f32) (MU RHO EPS : FVec Ideal S2048x2048 .f32) (B : FVec Ideal S2048 .f32)
    (y : S256x512.Idx) (i : S4096x2048.Idx)
    (hx : ∀ k : Fin 2048, x (ix2 (y 0) k) = X (ix2 (i 0) k))
    (hmu : ∀ k : Fin 2048, mu (ix2 (y 1) k) = MU (ix2 (i 1) k))
    (hrho : ∀ k : Fin 2048, rho (ix2 (y 1) k) = RHO (ix2 (i 1) k))
    (heps : ∀ k : Fin 2048, eps (ix2 (y 1) k) = EPS (ix2 (i 1) k))
    (hb : b (ix2 0 (y 1)) = B (ix1 (i 1))) :
    k0_pay1 (F := Ideal) x mu rho eps b y = out X MU RHO EPS B i := by
  obtain ⟨p, q, rfl⟩ : ∃ (p : Fin 256) (q : Fin 512), y = ix2 p q := ⟨y 0, y 1, eq_ix2 y⟩
  obtain ⟨n, o, rfl⟩ : ∃ (n : Fin 4096) (o : Fin 2048), i = ix2 n o := ⟨i 0, i 1, eq_ix2 i⟩
  have hx' : ∀ k : Fin 2048, x (ix2 p k) = X (ix2 n k) := hx
  have hmu' : ∀ k : Fin 2048, mu (ix2 q k) = MU (ix2 o k) := hmu
  have hrho' : ∀ k : Fin 2048, rho (ix2 q k) = RHO (ix2 o k) := hrho
  have heps' : ∀ k : Fin 2048, eps (ix2 q k) = EPS (ix2 o k) := heps
  have hb' : b (ix2 0 q) = B (ix1 o) := hb
  rw [Block.payload_at, out_apply, hb']
  refine congrArg (· + B (ix1 o)) (Finset.sum_congr rfl fun k _ => ?_)
  rw [hx', hmu', hrho', heps']
  rfl

/-- WHAT A GRID POINT WRITES BACK is its block of the layer. -/
theorem flushed_eq (c : Dev nD) (t : Fin cfg0.N) :
    (dats m 0 c).flushed 5 t = ((cfg0.win 5).blk t).view.read (Elt Ideal) (layer m c) := by
  rw [Cert.KernelIdeal.Value.flushed5]
  unfold out0_5
  rw [View.canon_unit_zero zero_offsets]
  simp only [View.ld_unit_zero (S := S256x2048) zero_offsets, View.ld_unit_zero (S := S512x2048) zero_offsets,
    View.ld_unit_zero (S := S1x512) zero_offsets]
  obtain ⟨e00, e01, e10, e11, e20, e21, e30, e31, e40, e41, -, -⟩ := index_maps t
  funext y
  have hy0 : (y 0).val < 256 := (y 0).isLt
  have hy1 : (y 1).val < 512 := (y 1).isLt
  show k0_pay1 (F := Ideal) (iblk m c 0 t) (iblk m c 1 t) (iblk m c 2 t) (iblk m c 3 t) (iblk m c 4 t) y
      = layer m c (((cfg0.win 5).blk t).view.emb y)
  unfold layer
  refine element_of_rows (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    y (((cfg0.win 5).blk t).view.emb y) ?_ ?_ ?_ ?_ ?_
  · intro k
    show V m c main_arg0 (((cfg0.win 0).blk t).view.emb (ix2 (y 0) k)) = _
    rw [V_main_arg0]
    refine congrArg _ (funext fun a => Fin.ext ?_)
    match a with
    | ⟨0, _⟩ => show win0_0.index t (0 : Fin 2) * 256 + 1 * (y 0).val = win0_5.index t (0 : Fin 2) * 256 + 1 * (y 0).val; omega
    | ⟨1, _⟩ => show win0_0.index t (1 : Fin 2) * 2048 + 1 * k.val = k.val; omega
  · intro k
    show V m c main_arg1 (((cfg0.win 1).blk t).view.emb (ix2 (y 1) k)) = _
    rw [V_main_arg1]
    refine congrArg _ (funext fun a => Fin.ext ?_)
    match a with
    | ⟨0, _⟩ => show win0_1.index t (0 : Fin 2) * 512 + 1 * (y 1).val = win0_5.index t (1 : Fin 2) * 512 + 1 * (y 1).val; omega
    | ⟨1, _⟩ => show win0_1.index t (1 : Fin 2) * 2048 + 1 * k.val = k.val; omega
  · intro k
    show V m c main_arg2 (((cfg0.win 2).blk t).view.emb (ix2 (y 1) k)) = _
    rw [V_main_arg2]
    refine congrArg _ (funext fun a => Fin.ext ?_)
    match a with
    | ⟨0, _⟩ => show win0_2.index t (0 : Fin 2) * 512 + 1 * (y 1).val = win0_5.index t (1 : Fin 2) * 512 + 1 * (y 1).val; omega
    | ⟨1, _⟩ => show win0_2.index t (1 : Fin 2) * 2048 + 1 * k.val = k.val; omega
  · intro k
    show V m c main_arg3 (((cfg0.win 3).blk t).view.emb (ix2 (y 1) k)) = _
    rw [V_main_arg3]
    refine congrArg _ (funext fun a => Fin.ext ?_)
    match a with
    | ⟨0, _⟩ => show win0_3.index t (0 : Fin 2) * 512 + 1 * (y 1).val = win0_5.index t (1 : Fin 2) * 512 + 1 * (y 1).val; omega
    | ⟨1, _⟩ => show win0_3.index t (1 : Fin 2) * 2048 + 1 * k.val = k.val; omega
  · refine Eq.trans ?_ (bias_row m c ((((cfg0.win 5).blk t).view.emb y) 1))
    show (V m c main_v0 : S1x2048.Idx → EReal) (((cfg0.win 4).blk t).view.emb (ix2 0 (y 1)))
      = (V m c main_v0 : S1x2048.Idx → EReal) (ix2 (0 : Fin 1) ((((cfg0.win 5).blk t).view.emb y) 1))
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * (y 1).val = win0_5.index t (1 : Fin 2) * 512 + 1 * (y 1).val; omega

/-- An index of the result is in point `t`'s block iff each coordinate is in the block's range on its axis. -/
theorem mem_block (t : Fin cfg0.N) (i : S4096x2048.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v1).slice (win0_5.rect t)).set ↔ _
  rw [View.set_slice_whole, Rect.mem_set_unit]
  exact Iff.rfl

/-- The 64 blocks cover the result. -/
theorem blocks_cover (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := index_onto ⟨(i 0).val / 256, by omega⟩ ⟨(i 1).val / 512, by omega⟩
  have q0 : win0_5.index t (0 : Fin 2) = (i 0).val / 256 := congrFun ht 0
  have q1 : win0_5.index t (1 : Fin 2) = (i 1).val / 512 := congrFun ht 1
  refine ⟨t, flush0_5 t, ?_⟩
  rw [mem_block]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 512 ≤ (i 1).val ∧ (i 1).val < win0_5.index t (1 : Fin 2) * 512 + 512; omega

/-- THE RESULT ARRAY after the run is the layer of the arguments. -/
theorem result_array (c : Dev nD) : (dats m 0 c).arrAt 5 cfg0.N = layer m c :=
  (dats m 0 c).arrAt_eq_of_cover 5 (layer m c) (fun t _ => flushed_eq m c t) blocks_cover

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩)
    (Cert.KernelIdeal.Value.run_blocks m ρ)

end Cert.BayesLinear.Grid

end
-- ==== Proof.ReferenceLayer.lean ====
/-
  The reference program's result, read at an index, is the layer of `LayerSpec`.

  The reference computes the sampled weight elementwise (its own spelling of `softplus`), contracts the
  activations with it over the feature axis by one host `dot_general` (at the ideal values: the plain sum over
  the 2048 features), and adds the bias broadcast along the rows.
-/
import proofs.«115161_j12876311953605_1_alg».proof.Proof.Gen.ReferenceIdeal.Read
import proofs.«115161_j12876311953605_1_alg».proof.Proof.LayerSpec

noncomputable section

open scoped BigOperators

namespace Cert.BayesLinear.Reference

open Cert.ReferenceIdeal Cert.ReferenceIdeal.Gen Cert.ReferenceIdeal.Read
open Idealize.ShloMosaic Idealize.ShloMosaic.ValueIdx Cert.BayesLinear

/-- The reference's weight stage at output `o`, feature `k` is `μ + softplus ρ · ε` there. -/
theorem weight_stage (mu rho eps : FVec Ideal S2048x2048 .f32) (j : S2048x2048.Idx) :
    val_main_v2 (F := Ideal) mu rho eps j = mu j + softplus (rho j) * eps j := by
  simp only [val_main_v2_apply, val_main_v1_apply, val_main_v0_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply,
    Ideal.addf_def, Ideal.subf_def, Ideal.mulf_def, Ideal.maximumf_def, Ideal.hostUnary_log1p_def, Ideal.hostUnary_exp_def,
    Ideal.hostNegf_def, Ideal.negf_def, Ideal.hostAbsf_def, Ideal.absf_def, Ideal.cmpf_def, Ideal.ofBits_def,
    Ideal.ofBits_zero_f32]
  rw [softplus_of_reference]

/-- The reference's result array is the layer's, index by index. -/
theorem result_eq (x : FVec Ideal S4096x2048 .f32) (mu rho eps : FVec Ideal S2048x2048 .f32) (b : FVec Ideal S2048 .f32) :
    val_main_v6 (F := Ideal) x mu rho eps b = out x mu rho eps b := by
  funext i
  obtain ⟨n, o, rfl⟩ : ∃ (n : Fin 4096) (o : Fin 2048), i = ix2 n o := ⟨i 0, i 1, eq_ix2 i⟩
  have el : ∀ k : Fin 2048, lidx_main_v3 (ix2 n o) k = ix2 n k := fun k =>
    funext fun a => by match a with | ⟨0, _⟩ => rfl | ⟨1, _⟩ => rfl
  have er : ∀ k : Fin 2048, ridx_main_v3 (ix2 n o) k = ix2 o k := fun k =>
    funext fun a => by match a with | ⟨0, _⟩ => rfl | ⟨1, _⟩ => rfl
  have eb : idx_main_v4 (idx_main_v5 (ix2 n o)) = ix1 o :=
    funext fun a => by match a with | ⟨0, _⟩ => rfl
  rw [val_main_v6_apply, val_main_v3_apply, val_main_v5_apply, val_main_v4_apply, out_apply, eb]
  simp only [el, er, weight_stage, Ideal.addf_def]
  rfl

end Cert.BayesLinear.Reference

end
-- ==== Proof.lean ====
/-
  The kernel — a linear layer whose weight is sampled as `μ + softplus ρ · ε`, computed block by block over a
  4 × 16 grid with the product on the matrix unit — against its jnp reference, over the extended reals.

  Both programs compute, at row `n` and output `o`,
      out[n, o] = ∑ₖ x[n, k] · (μ[o, k] + softplus ρ[o, k] · ε[o, k]) + b[o],     k over the 2048 features,
  with `softplus r = max r 0 + log (1 + e^(-|r|))` (`LayerSpec`). The kernel reaches it one 256 × 512 block per
  grid point (`KernelBlock`: the stored element from the loaded blocks; `KernelArray`: the blocks tile the result),
  the reference by elementwise host operations, one `dot_general` and a broadcast bias (`ReferenceLayer`). The
  two sums run over the same terms in the same index set, and the two spellings of `softplus` agree on every
  extended real, so the finiteness of the inputs is never used. The ideal pass rewrote nothing: `preserves` is `True`.
-/
import proofs.«115161_j12876311953605_1_alg».proof.Defs
import proofs.«115161_j12876311953605_1_alg».proof.Proof.Gen.Kernel
import proofs.«115161_j12876311953605_1_alg».proof.Proof.Gen.Kernel.Skeleton
import proofs.«115161_j12876311953605_1_alg».proof.Proof.Gen.Kernel.Launch
import proofs.«115161_j12876311953605_1_alg».proof.Proof.Gen.Kernel.Points
import proofs.«115161_j12876311953605_1_alg».proof.Proof.Gen.Kernel.Frame
import proofs.«115161_j12876311953605_1_alg».proof.Proof.Gen.KernelIdeal
import proofs.«115161_j12876311953605_1_alg».proof.Proof.Gen.KernelIdeal.Skeleton
import proofs.«115161_j12876311953605_1_alg».proof.Proof.Gen.KernelIdeal.Launch
import proofs.«115161_j12876311953605_1_alg».proof.Proof.Gen.KernelIdeal.Points
import proofs.«115161_j12876311953605_1_alg».proof.Proof.Gen.KernelIdeal.Frame
import proofs.«115161_j12876311953605_1_alg».proof.Proof.Gen.ReferenceIdeal
import proofs.«115161_j12876311953605_1_alg».proof.Proof.Gen.Pre_finite_inputs
import proofs.«115161_j12876311953605_1_alg».proof.Proof.Gen.KernelIdeal.Value
import proofs.«115161_j12876311953605_1_alg».proof.Proof.Gen.ReferenceIdeal.Run
import proofs.«115161_j12876311953605_1_alg».proof.Proof.Gen.ReferenceIdeal.Read
import proofs.«115161_j12876311953605_1_alg».proof.Proof.KernelArray
import proofs.«115161_j12876311953605_1_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their
    result arrays: the kernel's 64 blocks tile it, and the reference's composed term is it index by index. -/
theorem algebraic : Cert.algebraic_KernelIdeal_ReferenceIdeal := by
  intro m ρ m' ρ' _ hagree
  refine ⟨fun c => Cert.BayesLinear.Grid.layer m c, Cert.BayesLinear.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.BayesLinear.Reference.result_eq]
  obtain ⟨e0, e1, e2, e3, e4⟩ := hagree c
  rw [e0, e1, e2, e3, e4]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
